-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x16384 .f32) (main_arg1 : FVec F S16384x64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x16384 : Shape := ⟨2, ![16384, 16384]⟩
abbrev S16384x64 : Shape := ⟨2, ![16384, 64]⟩
abbrev S2x8192x16384 : Shape := ⟨3, ![2, 8192, 16384]⟩
abbrev S2x8192x64 : Shape := ⟨3, ![2, 8192, 64]⟩
abbrev S1x128x16384 : Shape := ⟨3, ![1, 128, 16384]⟩
abbrev S2x128x64 : Shape := ⟨3, ![2, 128, 64]⟩
abbrev S128x16384 : Shape := ⟨2, ![128, 16384]⟩
abbrev S128x64 : Shape := ⟨2, ![128, 64]⟩
abbrev S1x128x64 : Shape := ⟨3, ![1, 128, 64]⟩

abbrev nBuf : Space → Nat
  | .hbm => 5
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S2x8192x16384, .f32⟩
  | .hbm, ⟨3, _⟩ => ⟨S2x8192x64, .f32⟩
  | .hbm, ⟨4, _⟩ => ⟨S16384x64, .f32⟩
  | .local _ .vmem, ⟨0, _⟩ => ⟨S1x128x16384, .f32⟩
  | .local _ .vmem, ⟨1, _⟩ => ⟨S1x128x16384, .f32⟩
  | .local _ .vmem, ⟨2, _⟩ => ⟨S1x128x16384, .f32⟩
  | .local _ .vmem, ⟨3, _⟩ => ⟨S1x128x16384, .f32⟩
  | .local _ .vmem, ⟨4, _⟩ => ⟨S16384x64, .f32⟩
  | .local _ .vmem, ⟨5, _⟩ => ⟨S2x128x64, .f32⟩
  | .local _ .vmem, ⟨6, _⟩ => ⟨S2x128x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384x16384_S2x8192x16384 : S16384x16384.ShapeCasts S2x8192x16384
  inb_S16384x64_S16384x64_0_0 : ∀ a, (![0, 0] : Fin 2 → Nat) a + S16384x64.size a ≤ S16384x64.size a
  h_S16384x64 : 0 < S16384x64.numel
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  shapeCasts_S128x64_S1x128x64 : S128x64.ShapeCasts S1x128x64
  inb_S2x128x64_S1x128x64_1_0_0 : ∀ a, (![1, 0, 0] : Fin 3 → Nat) a + S1x128x64.size a ≤ S2x128x64.size a
  shapeCasts_S2x8192x64_S16384x64 : S2x8192x64.ShapeCasts S16384x64
  dot_S128x16384_S16384x64_S128x64_1_0_0_1_n_n_wf : DotDims.WF S128x16384 S16384x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16384.size a ≤ S2x8192x16384.size a
  hwx0_0 : ∀ i : grid0.Coords, EltTy.bits .f32 = 32 ∨ (Rect.block (s := S2x8192x16384) S1x128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16384.size a ≤ S2x8192x16384.size a
  hwx0_1 : ∀ i : grid0.Coords, EltTy.bits .f32 = 32 ∨ (Rect.block (s := S2x8192x16384) S1x128x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S16384x64.size a
  hwx0_2 : ∀ i : grid0.Coords, EltTy.bits .f32 = 32 ∨ (Rect.block (s := S16384x64) S16384x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128x64.size a ≤ S2x8192x64.size a
  hwx0_3 : ∀ i : grid0.Coords, EltTy.bits .f32 = 32 ∨ (Rect.block (s := S2x8192x64) S2x128x64.size (cc0_transform_3 i) (hinb0_3 i)).WholeWords (EltTy.packing .f32)

variable [Facts₀]

def dot_S128x16384_S16384x64_S128x64_1_0_0_1_n_n : DotDims S128x16384 S16384x64 S128x64 where
  lhsContracting := [1]
  rhsContracting := [0]
  lhsNonContracting := [0]
  rhsNonContracting := [1]
  lhsBatch := []
  rhsBatch := []
  wf := dot_S128x16384_S16384x64_S128x64_1_0_0_1_n_n_wf

abbrev win0_0 : Pipeline.Window sig grid0 :=
  Pipeline.Window.ofSpec (Memref.whole main_v0) S1x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x16384 : Shape := ⟨2, ![16384, 16384]⟩
abbrev S16384x64 : Shape := ⟨2, ![16384, 64]⟩

abbrev nBuf : Space → Nat
  | .hbm => 3
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x16384_S16384x64_S16384x64_1_0_0_1_n_n_wf : DotDims.WF S16384x16384 S16384x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.WordBody.lean ====
/-
  The kernel body of the two-panel matrix product, at any float instance.

  The adjacency matrix is viewed as two row panels of 8192 rows. At grid point t the body is handed rows
  128·t … 128·t+127 of the first panel (window 0), the same rows of the second panel (window 1), and the whole weight
  matrix (window 2). It multiplies each 128 × 16384 block by the 16384 × 64 weights, starting from a zero accumulator,
  and stores the two 128 × 64 products as the two slabs of its 2 × 128 × 64 output block (window 3). It also loads each
  slab of the output buffer before storing into it; the loaded values are used nowhere.

  This module states what the body leaves in the output block as a function of the three input blocks (two slabs that
  tile the block), proves the body's triple, gives the pipeline's proof data (each input buffer holds its block at every
  point; the two windows on the one reshaped array each hold HALF of that array's share), and proves the body
  obligation at a generic grid point.
-/
import proofs.«165830_g68917045231879_cont_9to1_m_97_14_alg».proof.Proof.Gen.Kernel.Launch
import proofs.«165830_g68917045231879_cont_9to1_m_97_14_alg».proof.Proof.Gen.Kernel.Skeleton
import proofs.«165830_g68917045231879_cont_9to1_m_97_14_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Panels

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## Blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole weight buffer. -/
abbrev rWeights : Rect S16384x64 := Rect.unit (s := S16384x64) ![0, 0] S16384x64.size inb_S16384x64_S16384x64_0_0
/-- A whole panel block. -/
abbrev rRows : Rect S1x128x16384 := Rect.unit (s := S1x128x16384) ![0, 0, 0] S1x128x16384.size inb_S1x128x16384_S1x128x16384_0_0_0
/-- The first slab of the output block: the product of the first panel's rows. -/
abbrev rSlab0 : Rect S2x128x64 := Rect.unit (s := S2x128x64) ![0, 0, 0] S1x128x64.size inb_S2x128x64_S1x128x64_0_0_0
/-- The second slab: the product of the second panel's rows. -/
abbrev rSlab1 : Rect S2x128x64 := Rect.unit (s := S2x128x64) ![1, 0, 0] S1x128x64.size inb_S2x128x64_S1x128x64_1_0_0

/-! ## What the body leaves in the output block -/

/-- The output block after the body: slab 1 the second panel's rows times the weights, slab 0 the first panel's
    (the later store listed first). -/
def slabs (a0 a1 : Vec F S1x128x16384 .f32) (w : Vec F S16384x64 .f32) : Vec F S2x128x64 .f32 :=
  View.canon [⟨rSlab1, k0_pay2 (View.ld w rWeights) (View.ld a1 rRows)⟩, ⟨rSlab0, k0_pay1 (View.ld w rWeights) (View.ld a0 rRows)⟩]

/-- The two slabs tile the 2 × 128 × 64 block. -/
theorem slabs_cover (p1 p0 : Vec F S1x128x64 .f32) (y : S2x128x64.Idx) :
    ∃ pc ∈ ([⟨rSlab1, p1⟩, ⟨rSlab0, p0⟩] : List (View.Piece (Elt F) S2x128x64 .f32)), y ∈ pc.1.set :=
  View.cover_of_tiled [⟨rSlab1, p1⟩, ⟨rSlab0, p0⟩] S1x128x64.size (by rfl) y

/-! ## The body's triple -/

set_option maxHeartbeats 1000000 in
/-- On whole staging buffers — the three inputs at read contents `a0`, `a1`, `w`, the output at anything — the body
    runs to its continuation with the inputs as they were and the output at `slabs a0 a1 w`. -/
theorem body_triple (c : Dev nD) (E : Set ℕ) (i : grid0.Coords)
    (arg1 : Memref sig .tc .vmem S1x128x16384 .f32) (harg1 : arg1.IsWhole)
    (arg2 : Memref sig .tc .vmem S1x128x16384 .f32) (harg2 : arg2.IsWhole)
    (arg3 : Memref sig .tc .vmem S16384x64 .f32) (harg3 : arg3.IsWhole)
    (arg4 : Memref sig .tc .vmem S2x128x64 .f32) (harg4 : arg4.IsWhole)
    (a0 a1 : Vec F S1x128x16384 .f32) (w : Vec F S16384x64 .f32) (K : PUnit → sProp 𝕄) :
    iprop(owns (c : Thread nD τ) arg1 fullShare a0 ∗ owns (c : Thread nD τ) arg2 fullShare a1
        ∗ owns (c : Thread nD τ) arg3 fullShare w ∗ (∃ d, owns (c : Thread nD τ) arg4 fullShare d)
        ∗ (iprop(owns (c : Thread nD τ) arg1 fullShare a0 ∗ owns (c : Thread nD τ) arg2 fullShare a1
            ∗ owns (c : Thread nD τ) arg3 fullShare w ∗ owns (c : Thread nD τ) arg4 fullShare (slabs a0 a1 w)) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (slabs_cover _ _)

/-! ## The pipeline's proof data -/

/-- The proof data on core `c`: the arrays as the region finds them; after the body each input buffer at its block
    and the output buffer at `slabs` of the three blocks; the invariant the scoped rest and the generator register,
    untouched; nothing owed. Windows 0 and 1 read ONE array (the adjacency matrix as two panels): each holds half of its
    share. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => slabs (blockAt V c 0 t) (blockAt V c 1 t) (blockAt V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) :
    (dat V c).after 3 t = slabs (blockAt V c 0 t) (blockAt V c 1 t) (blockAt V c 2 t) := by dsimp only [dat]

/-- Each input buffer holds its window's block at every point, fetched there or not (the weights are fetched once:
    their block index never moves). -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)

/-! ## The body obligation at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Panels

end
-- ==== Proof.WordRun.lean ====
/-
  The run of the two-panel matrix product's program, at any float instance.

  The program is: reshape the 16384 × 16384 adjacency matrix into two panels of 8192 rows; the kernel region; reshape
  the 2 × 8192 × 64 result into 16384 × 64. The kernel reads the reshaped matrix through TWO windows (one per panel),
  so that one buffer stands behind two of the pipeline's arrays. At the region's entry the buffer's points-to is split
  into two halves of its share, one per window; at the exit both windows hand their half back at the contents the
  region found (inputs are never written), and the halves are joined again. Only the kernel's result buffer changes
  across the region: it ends at what the write-backs of all 64 grid points leave.
-/
import proofs.«165830_g68917045231879_cont_9to1_m_97_14_alg».proof.Proof.WordBody
import Idealize.ShloMosaic.Lib.Pipeline.RegionsLoop
import Idealize.ShloMosaic.Lib.Pipeline.FrameSuffix

set_option maxRecDepth 16384

noncomputable section

namespace Cert.Kernel.Panels

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One buffer behind two windows -/

section Shares

variable (V : (c : Dev nD) → (b : Ref sig .tc) → Buf (Elt F) ((c : Thread nD τ).loc b))

/-- The three distinct buffers behind the four windows' arrays, each whole at the full share at contents `Vx`, ARE the
    four arrays as the proof data holds them, when each array's contents `A w` are `Vx` at its buffer: the reshaped
    matrix at the left half of its share for window 0 and at the right half for window 1, the weights and the result at
    the full share. -/
theorem arrBufs_arrays (c : Dev nD) (Vx : (b : Ref sig .tc) → Buf (Elt F) ((c : Thread nD τ).loc b))
    (A : (w : Fin cfg0.W) → Buf (Elt F) ((cfg0.win w).arr.view.loc (c : Thread nD τ)))
    (h0 : A 0 = Vx main_v0) (h1 : A 1 = Vx main_v0) (h2 : A 2 = Vx main_arg1) (h3 : A 3 = Vx main_v1) :
    (Pipeline.arrBufs spec0 c Vx : sProp 𝕄) ⊣⊢ (dat V c).arrays A := by
  unfold Pipeline.arrBufs Pipeline.Dat.arrays
  rw [bigSep_W0, bigSep_eq_bigSepL_of_eq [main_v0, main_arg1, main_v1] (by decide) (by decide)]
  rw [(arr_whole0 0).set_eq_univ, (arr_whole0 2).set_eq_univ, (arr_whole0 3).set_eq_univ, h0, h1, h2, h3]
  show (iprop((((c : Thread nD τ).loc main_v0) ↦{fullShare} Vx main_v0) ∗ (((c : Thread nD τ).loc main_arg1) ↦{fullShare} Vx main_arg1)
        ∗ (((c : Thread nD τ).loc main_v1) ↦{fullShare} Vx main_v1)) : sProp 𝕄)
      ⊣⊢ iprop((((c : Thread nD τ).loc main_v0) ↦{fullShare.left} Vx main_v0) ∗ (((c : Thread nD τ).loc main_v0) ↦{fullShare.right} Vx main_v0)
        ∗ (((c : Thread nD τ).loc main_arg1) ↦{fullShare} Vx main_arg1) ∗ (((c : Thread nD τ).loc main_v1) ↦{fullShare} Vx main_v1))
  have hs : ((((c : Thread nD τ).loc main_v0) ↦{fullShare} Vx main_v0 : sProp 𝕄))
      ⊣⊢ iprop((((c : Thread nD τ).loc main_v0) ↦{fullShare.left} Vx main_v0) ∗ (((c : Thread nD τ).loc main_v0) ↦{fullShare.right} Vx main_v0)) :=
    pointsTo_share (PosShare.mem_left_op_right fullShare)
  constructor
  · iintro ⟨Hv0, Hw, Hr⟩
    ihave H := hs.1 $$ Hv0
    icases H with ⟨Hl, Hrt⟩
    isplitl [Hl]; · iexact Hl
    isplitl [Hrt]; · iexact Hrt
    isplitl [Hw]; · iexact Hw
    iexact Hr
  · iintro ⟨Hl, Hrt, Hw, Hr⟩
    isplitl [Hl Hrt]
    · iapply hs.2; isplitl [Hl] <;> iassumption
    isplitl [Hw]; · iexact Hw
    iexact Hr

end Shares

/-! ## The buffer contents at each boundary of the program -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first reshape: the region's entry. -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the kernel's result buffer at what the 64 write-backs leave, every other buffer as entered. -/
def W2 (c : Dev nD) : Valuation τ sig (Elt F) :=
  Function.update (W1 m ρ c) (Proc.devRef .tc main_v1) ((dat (V1 m ρ) c).arrAt 3 cfg0.N)
abbrev V2 : (c : Dev nD) → (b : Ref sig .tc) → Buf (Elt F) ((c : Thread nD τ).loc b) := fun c b => W2 m ρ c b
/-- After the last reshape: the program's end. -/
abbrev W3 : Dev nD → Valuation τ sig (Elt F) := fun c => StableHlo.after hostOps1 (W2 m ρ c)

theorem W2_result (c : Dev nD) : W2 m ρ c (Proc.devRef .tc main_v1) = (dat (V1 m ρ) c).arrAt 3 cfg0.N := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) ..

/-- Neither reshape writes an argument, and the region changes only its result: each argument ends as launched. -/
theorem W3_of_arg (c : Dev nD) (b : Ref sig .tc) (h0 : b ≠ main_v0) (h1 : b ≠ main_v1) (h2 : b ≠ main_v2) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.reshape_writes, Finset.mem_singleton]
          exact StableHlo.devRef_ne_of_ne h2))
    _ = W1 m ρ c (Proc.devRef .tc b) := W2_of_ne m ρ c b h1
    _ = W0 m ρ c (Proc.devRef .tc b) := StableHlo.after_of_forall_not_mem (b := Proc.devRef .tc b) _ _ (List.forall_iff_forall_mem.mp (by
          simp only [hostOps0, List.Forall, StableHlo.reshape_writes, Finset.mem_singleton]
          exact StableHlo.devRef_ne_of_ne h0))
    _ = m ((c : Thread nD τ).loc b) := rfl

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The region as a segment -/

set_option backward.isDefEq.respectTransparency.types false in
/-- The region over the thread state: entered from every unscoped buffer at `W1`, left at `W2`. At the entry the three
    buffers behind the windows' arrays become the four arrays (the reshaped matrix in two halves of its share); at the
    exit the inputs come back as entered, the halves are joined, and the result buffer is at what the write-backs left. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrBufs_arrays (V1 m ρ) c (V1 m ρ c) _ rfl rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ cfgs 0 winFacts₀0.arr_unscoped c (V2 m ρ c)]
      refine sep_mono (arrBufs_arrays (V1 m ρ) c (V2 m ρ c) _
        (((dat (V1 m ρ) c).arrAt_in 0 rfl _).trans (W2_of_ne m ρ c main_v0 (by decide)).symm)
        (((dat (V1 m ρ) c).arrAt_in 1 rfl _).trans (W2_of_ne m ρ c main_v0 (by decide)).symm)
        (((dat (V1 m ρ) c).arrAt_in 2 rfl _).trans (W2_of_ne m ρ c main_arg1 (by decide)).symm)
        (W2_result m ρ c).symm).2 (Entails.of_eq ?_)
      rw [unscopedRest0_eq, unscopedRest0_eq]
      show iprop(_ ∗ _) = iprop(_ ∗ _)
      rw [show V2 m ρ c main_arg0 = V1 m ρ c main_arg0 from W2_of_ne m ρ c main_arg0 (by decide),
        show V2 m ρ c main_v2 = V1 m ρ c main_v2 from W2_of_ne m ρ c main_v2 (by decide)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The last thread state without the dues: every unscoped buffer at the end's contents, the generator register at some state. -/
abbrev Tₙ (c : Dev nD) : sProp 𝕄 := iprop(StableHlo.held (c : Thread nD τ) (Pipeline.ucRefs τ sig) (W3 m ρ c) ∗ ∃ r, prngReg c r)

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer ends at the fold `W3`: in particular the result at the last reshape of what the
    region left, and both arguments as launched. -/
theorem run_main : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_of_arg m ρ c main_arg0 (by decide) (by decide) (by decide)),
       (h c _ (mem_uc main_arg1 (by decide))).trans (W3_of_arg m ρ c main_arg1 (by decide) (by decide) (by decide))⟩)

end Cert.Kernel.Panels

end
-- ==== Proof.IdealBody.lean ====
/-
  The kernel body of the two-panel matrix product, at any float instance.

  The adjacency matrix is viewed as two row panels of 8192 rows. At grid point t the body is handed rows
  128·t … 128·t+127 of the first panel (window 0), the same rows of the second panel (window 1), and the whole weight
  matrix (window 2). It multiplies each 128 × 16384 block by the 16384 × 64 weights, starting from a zero accumulator,
  and stores the two 128 × 64 products as the two slabs of its 2 × 128 × 64 output block (window 3). It also loads each
  slab of the output buffer before storing into it; the loaded values are used nowhere.

  This module states what the body leaves in the output block as a function of the three input blocks (two slabs that
  tile the block), proves the body's triple, gives the pipeline's proof data (each input buffer holds its block at every
  point; the two windows on the one reshaped array each hold HALF of that array's share), and proves the body
  obligation at a generic grid point.
-/
import proofs.«165830_g68917045231879_cont_9to1_m_97_14_alg».proof.Proof.Gen.KernelIdeal.Launch
import proofs.«165830_g68917045231879_cont_9to1_m_97_14_alg».proof.Proof.Gen.KernelIdeal.Skeleton
import proofs.«165830_g68917045231879_cont_9to1_m_97_14_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Panels

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## Blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole weight buffer. -/
abbrev rWeights : Rect S16384x64 := Rect.unit (s := S16384x64) ![0, 0] S16384x64.size inb_S16384x64_S16384x64_0_0
/-- A whole panel block. -/
abbrev rRows : Rect S1x128x16384 := Rect.unit (s := S1x128x16384) ![0, 0, 0] S1x128x16384.size inb_S1x128x16384_S1x128x16384_0_0_0
/-- The first slab of the output block: the product of the first panel's rows. -/
abbrev rSlab0 : Rect S2x128x64 := Rect.unit (s := S2x128x64) ![0, 0, 0] S1x128x64.size inb_S2x128x64_S1x128x64_0_0_0
/-- The second slab: the product of the second panel's rows. -/
abbrev rSlab1 : Rect S2x128x64 := Rect.unit (s := S2x128x64) ![1, 0, 0] S1x128x64.size inb_S2x128x64_S1x128x64_1_0_0

/-! ## What the body leaves in the output block -/

/-- The output block after the body: slab 1 the second panel's rows times the weights, slab 0 the first panel's
    (the later store listed first). -/
def slabs (a0 a1 : Vec F S1x128x16384 .f32) (w : Vec F S16384x64 .f32) : Vec F S2x128x64 .f32 :=
  View.canon [⟨rSlab1, k0_pay2 (View.ld w rWeights) (View.ld a1 rRows)⟩, ⟨rSlab0, k0_pay1 (View.ld w rWeights) (View.ld a0 rRows)⟩]

/-- The two slabs tile the 2 × 128 × 64 block. -/
theorem slabs_cover (p1 p0 : Vec F S1x128x64 .f32) (y : S2x128x64.Idx) :
    ∃ pc ∈ ([⟨rSlab1, p1⟩, ⟨rSlab0, p0⟩] : List (View.Piece (Elt F) S2x128x64 .f32)), y ∈ pc.1.set :=
  View.cover_of_tiled [⟨rSlab1, p1⟩, ⟨rSlab0, p0⟩] S1x128x64.size (by rfl) y

/-! ## The body's triple -/

set_option maxHeartbeats 1000000 in
/-- On whole staging buffers — the three inputs at read contents `a0`, `a1`, `w`, the output at anything — the body
    runs to its continuation with the inputs as they were and the output at `slabs a0 a1 w`. -/
theorem body_triple (c : Dev nD) (E : Set ℕ) (i : grid0.Coords)
    (arg1 : Memref sig .tc .vmem S1x128x16384 .f32) (harg1 : arg1.IsWhole)
    (arg2 : Memref sig .tc .vmem S1x128x16384 .f32) (harg2 : arg2.IsWhole)
    (arg3 : Memref sig .tc .vmem S16384x64 .f32) (harg3 : arg3.IsWhole)
    (arg4 : Memref sig .tc .vmem S2x128x64 .f32) (harg4 : arg4.IsWhole)
    (a0 a1 : Vec F S1x128x16384 .f32) (w : Vec F S16384x64 .f32) (K : PUnit → sProp 𝕄) :
    iprop(owns (c : Thread nD τ) arg1 fullShare a0 ∗ owns (c : Thread nD τ) arg2 fullShare a1
        ∗ owns (c : Thread nD τ) arg3 fullShare w ∗ (∃ d, owns (c : Thread nD τ) arg4 fullShare d)
        ∗ (iprop(owns (c : Thread nD τ) arg1 fullShare a0 ∗ owns (c : Thread nD τ) arg2 fullShare a1
            ∗ owns (c : Thread nD τ) arg3 fullShare w ∗ owns (c : Thread nD τ) arg4 fullShare (slabs a0 a1 w)) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (slabs_cover _ _)

/-! ## The pipeline's proof data -/

/-- The proof data on core `c`: the arrays as the region finds them; after the body each input buffer at its block
    and the output buffer at `slabs` of the three blocks; the invariant the scoped rest and the generator register,
    untouched; nothing owed. Windows 0 and 1 read ONE array (the adjacency matrix as two panels): each holds half of its
    share. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => slabs (blockAt V c 0 t) (blockAt V c 1 t) (blockAt V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) :
    (dat V c).after 3 t = slabs (blockAt V c 0 t) (blockAt V c 1 t) (blockAt V c 2 t) := by dsimp only [dat]

/-- Each input buffer holds its window's block at every point, fetched there or not (the weights are fetched once:
    their block index never moves). -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)

/-! ## The body obligation at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Panels

end
-- ==== Proof.IdealRun.lean ====
/-
  The run of the two-panel matrix product's program, at any float instance.

  The program is: reshape the 16384 × 16384 adjacency matrix into two panels of 8192 rows; the kernel region; reshape
  the 2 × 8192 × 64 result into 16384 × 64. The kernel reads the reshaped matrix through TWO windows (one per panel),
  so that one buffer stands behind two of the pipeline's arrays. At the region's entry the buffer's points-to is split
  into two halves of its share, one per window; at the exit both windows hand their half back at the contents the
  region found (inputs are never written), and the halves are joined again. Only the kernel's result buffer changes
  across the region: it ends at what the write-backs of all 64 grid points leave.
-/
import proofs.«165830_g68917045231879_cont_9to1_m_97_14_alg».proof.Proof.IdealBody
import Idealize.ShloMosaic.Lib.Pipeline.RegionsLoop
import Idealize.ShloMosaic.Lib.Pipeline.FrameSuffix

set_option maxRecDepth 16384

noncomputable section

namespace Cert.KernelIdeal.Panels

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One buffer behind two windows -/

section Shares

variable (V : (c : Dev nD) → (b : Ref sig .tc) → Buf (Elt F) ((c : Thread nD τ).loc b))

/-- The three distinct buffers behind the four windows' arrays, each whole at the full share at contents `Vx`, ARE the
    four arrays as the proof data holds them, when each array's contents `A w` are `Vx` at its buffer: the reshaped
    matrix at the left half of its share for window 0 and at the right half for window 1, the weights and the result at
    the full share. -/
theorem arrBufs_arrays (c : Dev nD) (Vx : (b : Ref sig .tc) → Buf (Elt F) ((c : Thread nD τ).loc b))
    (A : (w : Fin cfg0.W) → Buf (Elt F) ((cfg0.win w).arr.view.loc (c : Thread nD τ)))
    (h0 : A 0 = Vx main_v0) (h1 : A 1 = Vx main_v0) (h2 : A 2 = Vx main_arg1) (h3 : A 3 = Vx main_v1) :
    (Pipeline.arrBufs spec0 c Vx : sProp 𝕄) ⊣⊢ (dat V c).arrays A := by
  unfold Pipeline.arrBufs Pipeline.Dat.arrays
  rw [bigSep_W0, bigSep_eq_bigSepL_of_eq [main_v0, main_arg1, main_v1] (by decide) (by decide)]
  rw [(arr_whole0 0).set_eq_univ, (arr_whole0 2).set_eq_univ, (arr_whole0 3).set_eq_univ, h0, h1, h2, h3]
  show (iprop((((c : Thread nD τ).loc main_v0) ↦{fullShare} Vx main_v0) ∗ (((c : Thread nD τ).loc main_arg1) ↦{fullShare} Vx main_arg1)
        ∗ (((c : Thread nD τ).loc main_v1) ↦{fullShare} Vx main_v1)) : sProp 𝕄)
      ⊣⊢ iprop((((c : Thread nD τ).loc main_v0) ↦{fullShare.left} Vx main_v0) ∗ (((c : Thread nD τ).loc main_v0) ↦{fullShare.right} Vx main_v0)
        ∗ (((c : Thread nD τ).loc main_arg1) ↦{fullShare} Vx main_arg1) ∗ (((c : Thread nD τ).loc main_v1) ↦{fullShare} Vx main_v1))
  have hs : ((((c : Thread nD τ).loc main_v0) ↦{fullShare} Vx main_v0 : sProp 𝕄))
      ⊣⊢ iprop((((c : Thread nD τ).loc main_v0) ↦{fullShare.left} Vx main_v0) ∗ (((c : Thread nD τ).loc main_v0) ↦{fullShare.right} Vx main_v0)) :=
    pointsTo_share (PosShare.mem_left_op_right fullShare)
  constructor
  · iintro ⟨Hv0, Hw, Hr⟩
    ihave H := hs.1 $$ Hv0
    icases H with ⟨Hl, Hrt⟩
    isplitl [Hl]; · iexact Hl
    isplitl [Hrt]; · iexact Hrt
    isplitl [Hw]; · iexact Hw
    iexact Hr
  · iintro ⟨Hl, Hrt, Hw, Hr⟩
    isplitl [Hl Hrt]
    · iapply hs.2; isplitl [Hl] <;> iassumption
    isplitl [Hw]; · iexact Hw
    iexact Hr

end Shares

/-! ## The buffer contents at each boundary of the program -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first reshape: the region's entry. -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the kernel's result buffer at what the 64 write-backs leave, every other buffer as entered. -/
def W2 (c : Dev nD) : Valuation τ sig (Elt F) :=
  Function.update (W1 m ρ c) (Proc.devRef .tc main_v1) ((dat (V1 m ρ) c).arrAt 3 cfg0.N)
abbrev V2 : (c : Dev nD) → (b : Ref sig .tc) → Buf (Elt F) ((c : Thread nD τ).loc b) := fun c b => W2 m ρ c b
/-- After the last reshape: the program's end. -/
abbrev W3 : Dev nD → Valuation τ sig (Elt F) := fun c => StableHlo.after hostOps1 (W2 m ρ c)

theorem W2_result (c : Dev nD) : W2 m ρ c (Proc.devRef .tc main_v1) = (dat (V1 m ρ) c).arrAt 3 cfg0.N := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) ..

/-- Neither reshape writes an argument, and the region changes only its result: each argument ends as launched. -/
theorem W3_of_arg (c : Dev nD) (b : Ref sig .tc) (h0 : b ≠ main_v0) (h1 : b ≠ main_v1) (h2 : b ≠ main_v2) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.reshape_writes, Finset.mem_singleton]
          exact StableHlo.devRef_ne_of_ne h2))
    _ = W1 m ρ c (Proc.devRef .tc b) := W2_of_ne m ρ c b h1
    _ = W0 m ρ c (Proc.devRef .tc b) := StableHlo.after_of_forall_not_mem (b := Proc.devRef .tc b) _ _ (List.forall_iff_forall_mem.mp (by
          simp only [hostOps0, List.Forall, StableHlo.reshape_writes, Finset.mem_singleton]
          exact StableHlo.devRef_ne_of_ne h0))
    _ = m ((c : Thread nD τ).loc b) := rfl

/-! ## The proof data family and the thread state -/

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The region as a segment -/

set_option backward.isDefEq.respectTransparency.types false in
/-- The region over the thread state: entered from every unscoped buffer at `W1`, left at `W2`. At the entry the three
    buffers behind the windows' arrays become the four arrays (the reshaped matrix in two halves of its share); at the
    exit the inputs come back as entered, the halves are joined, and the result buffer is at what the write-backs left. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrBufs_arrays (V1 m ρ) c (V1 m ρ c) _ rfl rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ cfgs 0 winFacts₀0.arr_unscoped c (V2 m ρ c)]
      refine sep_mono (arrBufs_arrays (V1 m ρ) c (V2 m ρ c) _
        (((dat (V1 m ρ) c).arrAt_in 0 rfl _).trans (W2_of_ne m ρ c main_v0 (by decide)).symm)
        (((dat (V1 m ρ) c).arrAt_in 1 rfl _).trans (W2_of_ne m ρ c main_v0 (by decide)).symm)
        (((dat (V1 m ρ) c).arrAt_in 2 rfl _).trans (W2_of_ne m ρ c main_arg1 (by decide)).symm)
        (W2_result m ρ c).symm).2 (Entails.of_eq ?_)
      rw [unscopedRest0_eq, unscopedRest0_eq]
      show iprop(_ ∗ _) = iprop(_ ∗ _)
      rw [show V2 m ρ c main_arg0 = V1 m ρ c main_arg0 from W2_of_ne m ρ c main_arg0 (by decide),
        show V2 m ρ c main_v2 = V1 m ρ c main_v2 from W2_of_ne m ρ c main_v2 (by decide)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The last thread state without the dues: every unscoped buffer at the end's contents, the generator register at some state. -/
abbrev Tₙ (c : Dev nD) : sProp 𝕄 := iprop(StableHlo.held (c : Thread nD τ) (Pipeline.ucRefs τ sig) (W3 m ρ c) ∗ ∃ r, prngReg c r)

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer ends at the fold `W3`: in particular the result at the last reshape of what the
    region left, and both arguments as launched. -/
theorem run_main : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_of_arg m ρ c main_arg0 (by decide) (by decide) (by decide)),
       (h c _ (mem_uc main_arg1 (by decide))).trans (W3_of_arg m ρ c main_arg1 (by decide) (by decide) (by decide))⟩)

end Cert.KernelIdeal.Panels

end
-- ==== Proof.Slab.lean ====
/-
  One slab of the body's result at an index, over the extended reals.

  A slab is the 128 × 64 product of a 128 × 16384 block of adjacency rows (handed over as 1 × 128 × 16384 and viewed
  without its unit axis) with the 16384 × 64 weights, accumulated from zero and stored back with the unit axis added.
  Over the extended reals the matrix unit's product into a zero accumulator is the plain sum of the 16384 products, so
  entry (0, r, n) of a slab is  Σ_k a(0, r, k) · w(k, n).
-/
import proofs.«165830_g68917045231879_cont_9to1_m_97_14_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Panels

open Idealize.ShloMosaic Idealize.ShloMosaic.TcCoe Idealize.SL.Sem
open Idealize.ShloMosaic.ValueIdx
open Cert.KernelIdeal Cert.KernelIdeal.Gen

/-! ## The product's index maps: output (r, n), contracted k ↦ left (r, k), right (k, n) -/

theorem lhs_axis0 (i : S128x64.Idx) (q : dot_S128x16384_S16384x64_S128x64_1_0_0_1_n_n.contr.Idx) :
    (dot_S128x16384_S16384x64_S128x64_1_0_0_1_n_n.lhsIdx i q 0).val = (i 0).val := by
  unfold DotDims.lhsIdx
  rw [dif_neg (show ¬(0 : Fin S128x16384.rank) ∈ dot_S128x16384_S16384x64_S128x64_1_0_0_1_n_n.lhsBatch by decide), dif_pos (show (0 : Fin S128x16384.rank) ∈ dot_S128x16384_S16384x64_S128x64_1_0_0_1_n_n.lhsNonContracting by decide)]
  rfl
theorem lhs_axis1 (i : S128x64.Idx) (q : dot_S128x16384_S16384x64_S128x64_1_0_0_1_n_n.contr.Idx) :
    (dot_S128x16384_S16384x64_S128x64_1_0_0_1_n_n.lhsIdx i q 1).val = (q ⟨0, by decide⟩).val :=
  dot_S128x16384_S16384x64_S128x64_1_0_0_1_n_n.lhsIdx_val_of_single rfl i q
theorem rhs_axis0 (i : S128x64.Idx) (q : dot_S128x16384_S16384x64_S128x64_1_0_0_1_n_n.contr.Idx) :
    (dot_S128x16384_S16384x64_S128x64_1_0_0_1_n_n.rhsIdx i q 0).val = (q ⟨0, by decide⟩).val :=
  dot_S128x16384_S16384x64_S128x64_1_0_0_1_n_n.rhsIdx_val_of_single rfl i q
theorem rhs_axis1 (i : S128x64.Idx) (q : dot_S128x16384_S16384x64_S128x64_1_0_0_1_n_n.contr.Idx) :
    (dot_S128x16384_S16384x64_S128x64_1_0_0_1_n_n.rhsIdx i q 1).val = (i 1).val := by
  unfold DotDims.rhsIdx
  rw [dif_neg (show ¬(1 : Fin S16384x64.rank) ∈ dot_S128x16384_S16384x64_S128x64_1_0_0_1_n_n.rhsBatch by decide), dif_pos (show (1 : Fin S16384x64.rank) ∈ dot_S128x16384_S16384x64_S128x64_1_0_0_1_n_n.rhsNonContracting by decide)]
  rfl

/-! ## A slab at an index -/

/-- Entry `x = (0, r, n)` of the slab computed from the rows `a` and the weights `w`: the sum over `k` of
    `a (0, r, k) · w (k, n)`. -/
theorem slab_apply (w : Vec Ideal S16384x64 .f32) (a : Vec Ideal S1x128x16384 .f32) (x : S1x128x64.Idx) :
    k0_pay1 (F := Ideal) w a x = ∑ k : Fin 16384, a (ix3 (0 : Fin 1) (x 1) k) * w (ix2 k (x 2)) := by
  unfold k0_pay1
  refine (shapeCast_addUnit_apply ![128, 64] _ _ x).trans ?_
  refine (Ideal.matmul_constant_zero_apply dot_S128x16384_S16384x64_S128x64_1_0_0_1_n_n none _ _ _).trans ?_
  refine (Equiv.sum_comp (contrEquiv1 dot_S128x16384_S16384x64_S128x64_1_0_0_1_n_n 16384 rfl rfl).symm _).symm.trans ?_
  refine Finset.sum_congr rfl fun k _ => ?_
  have hk := contrEquiv1_symm_val dot_S128x16384_S16384x64_S128x64_1_0_0_1_n_n 16384 rfl rfl k
  refine congrArg₂ (· * ·) ((shapeCast_dropUnit_apply ![128, 16384] a _ _).trans (congrArg a ?_)) (congrArg w ?_)
  · funext b; apply Fin.ext
    match b with
    | ⟨0, _⟩ => rfl
    | ⟨1, _⟩ => exact lhs_axis0 _ _
    | ⟨2, _⟩ => exact (lhs_axis1 (fun b => x b.succ) _).trans hk
  · funext b; apply Fin.ext
    match b with
    | ⟨0, _⟩ => exact (rhs_axis0 _ _).trans hk
    | ⟨1, _⟩ => exact rhs_axis1 _ _

/-- The second store's payload is the same function of its rows. -/
theorem slab_apply' (w : Vec Ideal S16384x64 .f32) (a : Vec Ideal S1x128x16384 .f32) (x : S1x128x64.Idx) :
    k0_pay2 (F := Ideal) w a x = ∑ k : Fin 16384, a (ix3 (0 : Fin 1) (x 1) k) * w (ix2 k (x 2)) :=
  slab_apply w a x

end Cert.KernelIdeal.Panels

end
-- ==== Proof.PanelValue.lean ====
/-
  What the region leaves in its result array, over the extended reals.

  The reshaped adjacency matrix X has shape 2 × 8192 × 16384 (panel, row, column) and the weights w 16384 × 64. The
  result array has shape 2 × 8192 × 64, and entry (a, r, n) of it ends at  Σ_k X(a, r, k) · w(k, n).
  Grid point t handles rows 128·t … 128·t + 127 of both panels: window 0 is the block (0, t, 0) of X, window 1 the block
  (1, t, 0), window 2 all of w, and the 2 × 128 × 64 output block sits at (0, t, 0) of the result. The output block's
  first slab is the product of window 0's rows and its second slab that of window 1's, so what point t writes back is
  block t of that one function of X and w. Row r of either panel lies in block r / 128, so the 64 blocks cover the
  result array.
-/
import proofs.«165830_g68917045231879_cont_9to1_m_97_14_alg».proof.Proof.IdealBody
import proofs.«165830_g68917045231879_cont_9to1_m_97_14_alg».proof.Proof.Slab

set_option maxRecDepth 16384

noncomputable section

namespace Cert.KernelIdeal.Panels

open Idealize.ShloMosaic Idealize.ShloMosaic.TcCoe Idealize.SL.Sem
open Idealize.ShloMosaic.ValueIdx
open Idealize.ShloMosaic.Pipeline (Dat Cfg Window)
open Cert.KernelIdeal Cert.KernelIdeal.Gen

/-- The region's result as one function of the reshaped matrix and the weights. -/
def panelProduct (X : S2x8192x16384.Idx → EReal) (w : S16384x64.Idx → EReal) : S2x8192x64.Idx → EReal :=
  fun i => ∑ k : Fin 16384, X (ix3 (i 0) (i 1) k) * w (ix2 k (i 2))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the 64 grid points: window 0 sits at block (0, t, 0), window 1 at (1, t, 0), the weights
    at (0, 0), the output at (0, t, 0). -/
theorem index_maps : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

variable (V : (c : Dev nD) → (b : Ref sig .tc) → Buf (Elt Ideal) ((c : Thread nD τ).loc b))

theorem point_lt (t : Fin cfg0.N) : t.val < 64 := lt_of_lt_of_eq t.isLt N_0

/-- Window 0's block at point `t` holds rows 128·t … of the first panel: entry `j` is the array's entry `i` when
    `i = (0, 128·t + j₁, j₂)`. -/
theorem rows0_apply (c : Dev nD) (t : Fin cfg0.N) (j : S1x128x16384.Idx) (i : S2x8192x16384.Idx)
    (h0 : (i 0).val = 0) (h1 : (i 1).val = t.val * 128 + (j 1).val) (h2 : (i 2).val = (j 2).val) :
    blockAt V c 0 t j = V c main_v0 i := by
  obtain ⟨e00, e01, e02, -⟩ := index_maps t
  have hj : (j 0).val < 1 := (j 0).isLt
  show V c main_v0 (((cfg0.win 0).blk t).view.emb j) = V c main_v0 i
  refine congrArg (V c main_v0) (funext fun a => Fin.ext ?_)
  match a with
  | ⟨0, _⟩ => show win0_0.index t (0 : Fin 3) * 1 + 1 * (j 0).val = (i 0).val; omega
  | ⟨1, _⟩ => show win0_0.index t (1 : Fin 3) * 128 + 1 * (j 1).val = (i 1).val; omega
  | ⟨2, _⟩ => show win0_0.index t (2 : Fin 3) * 16384 + 1 * (j 2).val = (i 2).val; omega

/-- Window 1's block at point `t` holds the same rows of the second panel: `i = (1, 128·t + j₁, j₂)`. -/
theorem rows1_apply (c : Dev nD) (t : Fin cfg0.N) (j : S1x128x16384.Idx) (i : S2x8192x16384.Idx)
    (h0 : (i 0).val = 1) (h1 : (i 1).val = t.val * 128 + (j 1).val) (h2 : (i 2).val = (j 2).val) :
    blockAt V c 1 t j = V c main_v0 i := by
  obtain ⟨-, -, -, e10, e11, e12, -⟩ := index_maps t
  have hj : (j 0).val < 1 := (j 0).isLt
  show V c main_v0 (((cfg0.win 1).blk t).view.emb j) = V c main_v0 i
  refine congrArg (V c main_v0) (funext fun a => Fin.ext ?_)
  match a with
  | ⟨0, _⟩ => show win0_1.index t (0 : Fin 3) * 1 + 1 * (j 0).val = (i 0).val; omega
  | ⟨1, _⟩ => show win0_1.index t (1 : Fin 3) * 128 + 1 * (j 1).val = (i 1).val; omega
  | ⟨2, _⟩ => show win0_1.index t (2 : Fin 3) * 16384 + 1 * (j 2).val = (i 2).val; omega

/-- Window 2's block is the whole weight matrix at every point. -/
theorem weights_apply (c : Dev nD) (t : Fin cfg0.N) (j i : S16384x64.Idx)
    (h0 : (i 0).val = (j 0).val) (h1 : (i 1).val = (j 1).val) :
    blockAt V c 2 t j = V c main_arg1 i := by
  obtain ⟨-, -, -, -, -, -, e20, e21, -⟩ := index_maps t
  show V c main_arg1 (((cfg0.win 2).blk t).view.emb j) = V c main_arg1 i
  refine congrArg (V c main_arg1) (funext fun a => Fin.ext ?_)
  match a with
  | ⟨0, _⟩ => show win0_2.index t (0 : Fin 2) * 16384 + 1 * (j 0).val = (i 0).val; omega
  | ⟨1, _⟩ => show win0_2.index t (1 : Fin 2) * 64 + 1 * (j 1).val = (i 1).val; omega

/-- Where entry `x` of slab `s` of the output block at point `t` sits in the result array: `(s, 128·t + x₁, x₂)`. -/
theorem slab0_emb (t : Fin cfg0.N) (x : S1x128x64.Idx) (a : Fin 3) :
    ((((cfg0.win 3).blk t).view.emb (rSlab0.emb x)) a).val = win0_3.index t a * S2x128x64.size a + 1 * ((![0, 0, 0] : Fin 3 → Nat) a + 1 * (x a).val) := rfl
theorem slab1_emb (t : Fin cfg0.N) (x : S1x128x64.Idx) (a : Fin 3) :
    ((((cfg0.win 3).blk t).view.emb (rSlab1.emb x)) a).val = win0_3.index t a * S2x128x64.size a + 1 * ((![1, 0, 0] : Fin 3 → Nat) a + 1 * (x a).val) := rfl

/-- WHAT POINT `t` WRITES BACK is block `t` of `panelProduct` of the arrays as the region finds them. -/
theorem flushed_eq (c : Dev nD) (t : Fin cfg0.N) :
    (dat V c).flushed 3 t = ((cfg0.win 3).blk t).view.read (Elt Ideal) (panelProduct (V c main_v0) (V c main_arg1)) := by
  show (cfg0.win 3).cut (grid0.coords t) ((dat V c).after 3 t) = _
  rw [after_3]
  unfold slabs
  simp only [View.ld_unit_zero (S := S16384x64) zeros2, View.ld_unit_zero (S := S1x128x16384) zeros3]
  obtain ⟨-, -, -, -, -, -, -, -, e30, e31, e32⟩ := index_maps t
  funext y
  refine (View.canon_apply_of_pieces (fun y => panelProduct (V c main_v0) (V c main_arg1) (((cfg0.win 3).blk t).view.emb y)) _ ?_ y (slabs_cover _ _ y)).trans ?_
  · intro p hp x
    simp only [List.mem_cons, List.mem_singleton, List.not_mem_nil, or_false] at hp
    rcases hp with rfl | rfl
    · have hx : (x 0).val < 1 := (x 0).isLt
      refine (slab_apply' _ _ x).trans ?_
      unfold panelProduct
      refine Finset.sum_congr rfl fun k _ => ?_
      refine congrArg₂ (· * ·) (rows1_apply V c t _ _ ?_ ?_ rfl) (weights_apply V c t _ _ rfl ?_)
      · show ((((cfg0.win 3).blk t).view.emb (rSlab1.emb x)) 0).val = 1
        rw [slab1_emb]; show win0_3.index t (0 : Fin 3) * 2 + 1 * (1 + 1 * (x 0).val) = 1; omega
      · show ((((cfg0.win 3).blk t).view.emb (rSlab1.emb x)) 1).val = t.val * 128 + (x 1).val
        rw [slab1_emb]; show win0_3.index t (1 : Fin 3) * 128 + 1 * (0 + 1 * (x 1).val) = _; omega
      · show ((((cfg0.win 3).blk t).view.emb (rSlab1.emb x)) 2).val = (x 2).val
        rw [slab1_emb]; show win0_3.index t (2 : Fin 3) * 64 + 1 * (0 + 1 * (x 2).val) = _; omega
    · have hx : (x 0).val < 1 := (x 0).isLt
      refine (slab_apply _ _ x).trans ?_
      unfold panelProduct
      refine Finset.sum_congr rfl fun k _ => ?_
      refine congrArg₂ (· * ·) (rows0_apply V c t _ _ ?_ ?_ rfl) (weights_apply V c t _ _ rfl ?_)
      · show ((((cfg0.win 3).blk t).view.emb (rSlab0.emb x)) 0).val = 0
        rw [slab0_emb]; show win0_3.index t (0 : Fin 3) * 2 + 1 * (0 + 1 * (x 0).val) = 0; omega
      · show ((((cfg0.win 3).blk t).view.emb (rSlab0.emb x)) 1).val = t.val * 128 + (x 1).val
        rw [slab0_emb]; show win0_3.index t (1 : Fin 3) * 128 + 1 * (0 + 1 * (x 1).val) = _; omega
      · show ((((cfg0.win 3).blk t).view.emb (rSlab0.emb x)) 2).val = (x 2).val
        rw [slab0_emb]; show win0_3.index t (2 : Fin 3) * 64 + 1 * (0 + 1 * (x 2).val) = _; omega
  · rw [View.read_apply]
    exact (cast_eq _ _).symm

/-- An index of the result array is in point `t`'s block iff each coordinate is in the block's range on its axis. -/
theorem mem_block (t : Fin cfg0.N) (i : S2x8192x64.Idx) :
    i ∈ ((cfg0.win 3).blk t).view.set ↔ ∀ a : Fin 3, win0_3.index t a * S2x128x64.size a ≤ (i a).val ∧ (i a).val < win0_3.index t a * S2x128x64.size a + S2x128x64.size a := by
  show i ∈ ((View.whole main_v1).slice (win0_3.rect t)).set ↔ _
  rw [View.set_slice_whole, Rect.mem_set_unit]
  exact Iff.rfl

/-- THE COVER: row `r` of either panel is written back by point `r / 128`. -/
theorem blocks_cover (i : S2x8192x64.Idx) : ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 64 := (i 2).isLt
  have hN : (i 1).val / 128 < cfg0.N := by show _ < grid0.N; rw [N_0]; omega
  obtain ⟨-, -, -, -, -, -, -, -, e30, e31, e32⟩ := index_maps ⟨(i 1).val / 128, hN⟩
  refine ⟨⟨(i 1).val / 128, hN⟩, flush0_3 _, ?_⟩
  rw [mem_block]
  intro a
  match a with
  | ⟨0, _⟩ => show win0_3.index ⟨(i 1).val / 128, hN⟩ (0 : Fin 3) * 2 ≤ (i 0).val ∧ (i 0).val < win0_3.index ⟨(i 1).val / 128, hN⟩ (0 : Fin 3) * 2 + 2; omega
  | ⟨1, _⟩ =>
    show win0_3.index ⟨(i 1).val / 128, hN⟩ (1 : Fin 3) * 128 ≤ (i 1).val ∧ (i 1).val < win0_3.index ⟨(i 1).val / 128, hN⟩ (1 : Fin 3) * 128 + 128
    rw [e31]; show (i 1).val / 128 * 128 ≤ (i 1).val ∧ (i 1).val < (i 1).val / 128 * 128 + 128; omega
  | ⟨2, _⟩ => show win0_3.index ⟨(i 1).val / 128, hN⟩ (2 : Fin 3) * 64 ≤ (i 2).val ∧ (i 2).val < win0_3.index ⟨(i 1).val / 128, hN⟩ (2 : Fin 3) * 64 + 64; omega

/-- THE RESULT ARRAY after the region: `panelProduct` of the reshaped matrix and the weights as the region found them. -/
theorem result_array (c : Dev nD) : (dat V c).arrAt 3 cfg0.N = panelProduct (V c main_v0) (V c main_arg1) :=
  (dat V c).arrAt_eq_of_cover 3 _ (fun t _ => flushed_eq V c t) blocks_cover

/-! ## The two reshapes -/

/-- The whole product: entry (r, n) is  Σ_k x(r, k) · w(k, n). -/
def product (x : S16384x16384.Idx → EReal) (w : S16384x64.Idx → EReal) : S16384x64.Idx → EReal :=
  fun i => ∑ k : Fin 16384, x (ix2 (i 0) k) * w (ix2 k (i 1))

/-- Splitting the rows into two panels, multiplying each, and stacking the products again is the whole product: row
    `r` is row `r % 8192` of panel `r / 8192` on both sides of the two reshapes. -/
theorem reshaped_product (x : S16384x16384.Idx → EReal) (w : S16384x64.Idx → EReal) :
    shapeCast S16384x64 (panelProduct (shapeCast S2x8192x16384 x shapeCasts_S16384x16384_S2x8192x16384) w) shapeCasts_S2x8192x64_S16384x64
      = product x w := by
  funext i
  have hi0 : (i 0).val < 16384 := (i 0).isLt
  have hi1 : (i 1).val < 64 := (i 1).isLt
  refine (shapeCast_apply _ shapeCasts_S2x8192x64_S16384x64 i
    (ix3 (⟨(i 0).val / 8192, by omega⟩ : Fin 2) (⟨(i 0).val % 8192, by omega⟩ : Fin 8192) (i 1)) ?_).trans ?_
  · rw [Shape.rowMajor_val_three, Shape.rowMajor_val_two]
    show ((i 0).val / 8192 * 8192 + (i 0).val % 8192) * 64 + (i 1).val = (i 0).val * 64 + (i 1).val
    omega
  · unfold panelProduct product
    refine Finset.sum_congr rfl fun k _ => ?_
    refine congrArg₂ (· * ·) ?_ rfl
    refine shapeCast_apply x shapeCasts_S16384x16384_S2x8192x16384 _ (ix2 (i 0) k) ?_
    rw [Shape.rowMajor_val_two, Shape.rowMajor_val_three]
    show (i 0).val * 16384 + k.val = ((i 0).val / 8192 * 8192 + (i 0).val % 8192) * 16384 + k.val
    omega

end Cert.KernelIdeal.Panels

end
-- ==== Proof.Result.lean ====
/-
  Both programs end at the whole product  Σ_k adj(r, k) · w(k, n).

  Kernel side: the first reshape views the 16384 × 16384 matrix as two panels; the region leaves each panel's product
  with the weights in its result array; the last reshape stacks the two 8192 × 64 products into 16384 × 64. Splitting
  the rows, multiplying, and stacking again is the whole product, entry by entry. Reference side: one contraction of the
  matrix's columns with the weights' rows, which over the extended reals is the same sum.
-/
import proofs.«165830_g68917045231879_cont_9to1_m_97_14_alg».proof.Proof.IdealRun
import proofs.«165830_g68917045231879_cont_9to1_m_97_14_alg».proof.Proof.PanelValue
import proofs.«165830_g68917045231879_cont_9to1_m_97_14_alg».proof.Proof.Gen.ReferenceIdeal.Run
import proofs.«165830_g68917045231879_cont_9to1_m_97_14_alg».proof.Proof.Gen.ReferenceIdeal.Read

set_option maxRecDepth 16384

noncomputable section

namespace Cert.KernelIdeal.Panels

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-- At the region's entry the reshaped buffer holds the launched matrix in row-major order at the panel shape. -/
theorem entry_matrix (c : Dev nD) :
    (V1 m ρ c main_v0 : S2x8192x16384.Idx → EReal)
      = shapeCast S2x8192x16384 (m ((c : Thread nD τ).loc main_arg0)) shapeCasts_S16384x16384_S2x8192x16384 := by
  dsimp only [V1, W1, hostOps0]; after_results; rfl

/-- The weights are as launched. -/
theorem entry_weights (c : Dev nD) :
    (V1 m ρ c main_arg1 : S16384x64.Idx → EReal) = m ((c : Thread nD τ).loc main_arg1) := by
  dsimp only [V1, W1, hostOps0]; after_results

/-- At the end the result buffer holds the region's result array in row-major order at the 16384 × 64 shape. -/
theorem end_result (c : Dev nD) :
    (W3 m ρ c (Proc.devRef .tc main_v2) : S16384x64.Idx → EReal)
      = shapeCast S16384x64 (W2 m ρ c (Proc.devRef .tc main_v1)) shapeCasts_S2x8192x64_S16384x64 := by
  dsimp only [W3, hostOps1]; after_results; rfl

/-- THE KERNEL'S RESULT: the whole product of the launched matrix and weights. -/
theorem kernel_result (c : Dev nD) :
    (W3 m ρ c (Proc.devRef .tc main_v2) : S16384x64.Idx → EReal)
      = product (m ((c : Thread nD τ).loc main_arg0)) (m ((c : Thread nD τ).loc main_arg1)) := by
  rw [end_result, W2_result, result_array (V1 m ρ) c, entry_matrix, entry_weights]
  exact reshaped_product _ _

end Cert.KernelIdeal.Panels

namespace Cert.ReferenceIdeal.Whole

open Idealize.ShloMosaic Idealize.ShloMosaic.ValueIdx

/-- THE REFERENCE'S RESULT is the same function: its contraction pairs column `k` of row `r` with row `k` of column `n`. -/
theorem reference_product (x0 : Cert.ReferenceIdeal.S16384x16384.Idx → EReal) (x1 : Cert.ReferenceIdeal.S16384x64.Idx → EReal) :
    Cert.ReferenceIdeal.Read.val_main_v0 (F := Ideal) x0 x1 = Cert.KernelIdeal.Panels.product x0 x1 := by
  funext i
  rw [Cert.ReferenceIdeal.Read.val_main_v0_apply]
  unfold Cert.KernelIdeal.Panels.product
  refine Finset.sum_congr rfl fun k _ => ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

end Cert.ReferenceIdeal.Whole

end
-- ==== Proof.lean ====
/-
  The kernel computes adj · weight with the adjacency matrix viewed as two panels of 8192 rows; the reference computes
  the same product in one contraction.

  The kernel's program reshapes the 16384 × 16384 matrix into 2 × 8192 × 16384, runs one pipelined region over 64 grid
  points (at point t: rows 128·t … 128·t + 127 of each panel times the whole 16384 × 64 weight matrix, a zero
  accumulator, the two 128 × 64 products stored as the two slabs of a 2 × 128 × 64 output block), and reshapes the
  2 × 8192 × 64 result into 16384 × 64. The reshaped matrix stands behind TWO input windows of the region: the frame
  holds it at two halves of one share through the region and joins them at its exit.

  Frames: the run of the kernel's program is proved once at any float instance and read at the word level and at the
  ideal level; the reference's frame is its run. The ideal pass rewrote nothing, so the idealization claim is trivial.
  Values: over the extended reals a matrix-unit product into zero and the host's contraction are both the plain sum
  Σ_k adj(r, k) · w(k, n); splitting the rows into two panels, multiplying and stacking again changes no entry. No law
  beyond 0 + s = s is used, so the finiteness of the inputs is never opened.
-/
import proofs.«165830_g68917045231879_cont_9to1_m_97_14_alg».proof.Defs
import proofs.«165830_g68917045231879_cont_9to1_m_97_14_alg».proof.Proof.Gen.Kernel
import proofs.«165830_g68917045231879_cont_9to1_m_97_14_alg».proof.Proof.Gen.KernelIdeal
import proofs.«165830_g68917045231879_cont_9to1_m_97_14_alg».proof.Proof.Gen.ReferenceIdeal
import proofs.«165830_g68917045231879_cont_9to1_m_97_14_alg».proof.Proof.Gen.Pre_finite_inputs
import proofs.«165830_g68917045231879_cont_9to1_m_97_14_alg».proof.Proof.WordRun
import proofs.«165830_g68917045231879_cont_9to1_m_97_14_alg».proof.Proof.IdealRun
import proofs.«165830_g68917045231879_cont_9to1_m_97_14_alg».proof.Proof.Result

noncomputable section

namespace Cert.Proof

open Idealize.ShloMosaic Idealize.ShloMosaic.TcCoe Idealize.SL.Sem

/-- The word-level program runs and leaves both arguments as launched. -/
theorem frame_word : Cert.frame_Kernel := fun m ρ _ =>
  (θ_run Cert.Kernel.defs _ _).mono (fun _ h c => (h c).2) (Cert.Kernel.Panels.run_main m ρ)

/-- So does the idealized program. -/
theorem frame_ideal : Cert.frame_KernelIdeal := fun m ρ _ =>
  (θ_run Cert.KernelIdeal.defs _ _).mono (fun _ h c => (h c).2) (Cert.KernelIdeal.Panels.run_main m ρ)

/-- And the reference. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the whole product  Σ_k adj(r, k) · w(k, n)  in
    their result buffers, the arguments unchanged. -/
theorem algebraic : Cert.algebraic_KernelIdeal_ReferenceIdeal := by
  intro m ρ m' ρ' _ hagree
  refine ⟨fun c => Cert.KernelIdeal.Panels.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Panels.kernel_result m ρ c), (h c).2⟩)
      (Cert.KernelIdeal.Panels.run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Whole.reference_product _ _

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
